-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S8396800 : Shape := ⟨1, ![8396800]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8396800 : S_.BroadcastsInDim S8396800 (![] : Fin 0 → Fin S8396800.rank)
  reducesTo_S8396800_S_d0 : S8396800.ReducesTo [0] S_

variable [Facts]

def fn {F : FTy → Type} [FloatOps F] (main_arg0 : FVec F S16384x1024 .f32) (main_arg1 : FVec F S8396800 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S8396800 .f32 := Host.absf main_arg1
  let main_cst_0 : FVec F S_ .f32 := constant S_ .f32 0x7F800000#32
  let main_v5 : FVec F S8396800 .f32 := broadcastInDim S8396800 ![] bcast_S_S8396800 main_cst_0
  let main_v6 : IVec S8396800 1 := cmpf .olt main_v4 main_v5
  let main_c_1 : IVec S_ 1 := constantI S_ 1 1#1
  let main_v7 : IVec S_ 1 := (fun x v => Host.reduce IntOp.andi x v reducesTo_S8396800_S_d0 h_S_) main_v6 main_c_1
  let main_v8 : IVec S_ 1 := andi main_v3 main_v7
  main_v8
-- ==== Kernel.lean ====
abbrev S16384x1024 : Shape := ⟨2, ![16384, 1024]⟩
abbrev S8396800 : Shape := ⟨1, ![8396800]⟩
abbrev S4096 : Shape := ⟨1, ![4096]⟩
abbrev S1x4096 : Shape := ⟨2, ![1, 4096]⟩
abbrev S4194304 : Shape := ⟨1, ![4194304]⟩
abbrev S4096x1024 : Shape := ⟨2, ![4096, 1024]⟩
abbrev S16384x4096 : Shape := ⟨2, ![16384, 4096]⟩
abbrev S512x1024 : Shape := ⟨2, ![512, 1024]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S8396800, .f32⟩
  | .hbm, ⟨2, _⟩ => ⟨S4096, .f32⟩
  | .hbm, ⟨3, _⟩ => ⟨S1x4096, .f32⟩
  | .hbm, ⟨4, _⟩ => ⟨S4194304, .f32⟩
  | .hbm, ⟨5, _⟩ => ⟨S4096x1024, .f32⟩
  | .hbm, ⟨6, _⟩ => ⟨S4194304, .f32⟩
  | .hbm, ⟨7, _⟩ => ⟨S4096x1024, .f32⟩
  | .hbm, ⟨8, _⟩ => ⟨S4096, .f32⟩
  | .hbm, ⟨9, _⟩ => ⟨S1x4096, .f32⟩
  | .hbm, ⟨10, _⟩ => ⟨S16384x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S8396800_S4096_0 : S8396800.Slices ![0] S4096
  shapeCasts_S4096_S1x4096 : S4096.ShapeCasts S1x4096
  slices_S8396800_S4194304_4096 : S8396800.Slices ![4096] S4194304
  shapeCasts_S4194304_S4096x1024 : S4194304.ShapeCasts S4096x1024
  slices_S8396800_S4194304_4198400 : S8396800.Slices ![4198400] S4194304
  slices_S8396800_S4096_8392704 : S8396800.Slices ![8392704] S4096
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  broadcasts_S1x1024_S512x1024 : S1x1024.Broadcasts S512x1024
  reduces_S512x1024_S512 : S512x1024.Reduces [1] S512
  shapeCasts_S512_S512x1 : S512.ShapeCasts S512x1
  reduces_S1024x1024_S1024 : S1024x1024.Reduces [1] S1024
  shapeCasts_S1024_S1024x1 : S1024.ShapeCasts S1024x1
  transposes_S1024x1_p1_0_S1x1024 : S1024x1.Transposes [1, 0] S1x1024
  broadcasts_S512x1_S512x1024 : S512x1.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .f32 = 32 ∨ (Rect.block (s := S4096x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x4096.size a
  hwx0_5 : ∀ i : grid0.Coords, EltTy.bits .f32 = 32 ∨ (Rect.block (s := S16384x4096) S512x1024.size (cc0_transform_5 i) (hinb0_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S8396800 : Shape := ⟨1, ![8396800]⟩
abbrev S_ : Shape := ⟨0, ![]⟩
abbrev S4096 : Shape := ⟨1, ![4096]⟩
abbrev S4194304 : Shape := ⟨1, ![4194304]⟩
abbrev S4096x1024 : Shape := ⟨2, ![4096, 1024]⟩
abbrev S16384x4096 : Shape := ⟨2, ![16384, 4096]⟩
abbrev S1x4096 : Shape := ⟨2, ![1, 4096]⟩
abbrev S16384 : Shape := ⟨1, ![16384]⟩
abbrev S16384x1 : Shape := ⟨2, ![16384, 1]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8396800, .f32⟩
  | .hbm, ⟨2, _⟩ => ⟨S_, .f32⟩
  | .hbm, ⟨3, _⟩ => ⟨S16384x1024, .f32⟩
  | .hbm, ⟨4, _⟩ => ⟨S16384x1024, .f32⟩
  | .hbm, ⟨5, _⟩ => ⟨S4096, .f32⟩
  | .hbm, ⟨6, _⟩ => ⟨S4194304, .f32⟩
  | .hbm, ⟨7, _⟩ => ⟨S4096x1024, .f32⟩
  | .hbm, ⟨8, _⟩ => ⟨S4194304, .f32⟩
  | .hbm, ⟨9, _⟩ => ⟨S4096x1024, .f32⟩
  | .hbm, ⟨10, _⟩ => ⟨S4096, .f32⟩
  | .hbm, ⟨11, _⟩ => ⟨S16384x4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S1x4096, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S1x4096, .f32⟩
  | .hbm, ⟨34, _⟩ => ⟨S16384x4096, .f32⟩
  | .hbm, ⟨35, _⟩ => ⟨S16384x4096, .f32⟩
  | .hbm, ⟨36, _⟩ => ⟨S_, .f32⟩
  | .hbm, ⟨37, _⟩ => ⟨S16384x4096, .f32⟩
  | .hbm, ⟨38, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]

class Facts₀ : Prop where
  bcast_S_S16384x1024 : S_.BroadcastsInDim S16384x1024 (![] : Fin 0 → Fin S16384x1024.rank)
  slices_S8396800_S4096_0 : S8396800.Slices ![0] S4096
  slices_S8396800_S4194304_4096 : S8396800.Slices ![4096] S4194304
  shapeCasts_S4194304_S4096x1024 : S4194304.ShapeCasts S4096x1024
  slices_S8396800_S4194304_4198400 : S8396800.Slices ![4198400] S4194304
  slices_S8396800_S4096_8392704 : S8396800.Slices ![8392704] S4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S4096x1024_S4096_d1 : S4096x1024.ReducesTo [1] S4096
  bcast_S_S16384x4096 : S_.BroadcastsInDim S16384x4096 (![] : Fin 0 → Fin S16384x4096.rank)
  bcast_S16384x1_S16384x4096_0_1 : S16384x1.BroadcastsInDim S16384x4096 (![0, 1] : Fin 2 → Fin S16384x4096.rank)
  dot_S16384x1024_S4096x1024_S16384x4096_1_1_0_0_n_n_wf : DotDims.WF S16384x1024 S4096x1024 S16384x4096 [1] [1] [0] [0] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf

class Facts : Prop extends Facts₀ where

variable [Facts]
-- ==== Proof.Response.lean ====
/-
  The paraboloid neuron's response, as one function of the argument arrays.

  For a row x of the (scaled) input, a row h of directrix weights with offset h0, and a focus row p with offset p0, the
  response is   out · ((⟨s·x, h⟩ + h0)² − ((‖s·x‖² − 2·⟨s·x, p⟩) + ‖p‖²) + p0),
  where s is the input scale, out the output scale, and every sum runs over the 1024 features. The two scales and the
  factor 2 are kept as the float words the programs print: the same word on both sides is never evaluated. The grouping
  of the additions and subtractions is the one both programs use, so no law beyond that grouping is needed on the
  extended reals.
-/
import Idealize.ShloMosaic.PureOps.Ideal
import Idealize.ShloMosaic.Lib.ValueIdx

noncomputable section

open scoped BigOperators

namespace Cert.Response

open Idealize.ShloMosaic Idealize.ShloMosaic.ValueIdx

/-- The input scale (the float nearest 0.01), as an extended real. -/
def inScale : EReal := Ideal.ofBits .f32 0x3C23D70A#32
/-- The output scale (the float nearest 0.1). -/
def outScale : EReal := Ideal.ofBits .f32 0x3DCCCCCD#32
/-- The factor of the cross term (2.0). -/
def two : EReal := Ideal.ofBits .f32 0x40000000#32

/-- The response from one input row `xr`, one weight row `hr` with offset `h0`, one focus row `pr` with offset `p0`. -/
def point (xr hr pr : Fin 1024 → EReal) (h0 p0 : EReal) : EReal :=
  outScale *
    ((((∑ k : Fin 1024, (inScale * xr k) * hr k) + h0) * ((∑ k : Fin 1024, (inScale * xr k) * hr k) + h0)
        - (((∑ k : Fin 1024, (inScale * xr k) * (inScale * xr k)) - two * ∑ k : Fin 1024, (inScale * xr k) * pr k)
            + ∑ k : Fin 1024, pr k * pr k))
      + p0)

/-- The response depends on its rows only through their entries. -/
theorem point_congr {xr xr' hr hr' pr pr' : Fin 1024 → EReal} {h0 h0' p0 p0' : EReal}
    (ex : ∀ k, xr k = xr' k) (eh : ∀ k, hr k = hr' k) (ep : ∀ k, pr k = pr' k) (e0 : h0 = h0') (e1 : p0 = p0') :
    point xr hr pr h0 p0 = point xr' hr' pr' h0' p0' := by
  obtain rfl : xr = xr' := funext ex
  obtain rfl : hr = hr' := funext eh
  obtain rfl : pr = pr' := funext ep
  subst e0 e1
  rfl

/-- The whole result: entry (b, n) is the response of input row b against neuron n. -/
def response (x : (⟨2, ![16384, 1024]⟩ : Shape).Idx → EReal) (h p : (⟨2, ![4096, 1024]⟩ : Shape).Idx → EReal)
    (h0 p0 : Fin 4096 → EReal) : (⟨2, ![16384, 4096]⟩ : Shape).Idx → EReal :=
  fun i => point (fun k => x (ix2 (i 0) k)) (fun k => h (ix2 (i 1) k)) (fun k => p (ix2 (i 1) k)) (h0 (i 1)) (p0 (i 1))

/-- Read at coordinates. -/
theorem response_ix2 (x : (⟨2, ![16384, 1024]⟩ : Shape).Idx → EReal) (h p : (⟨2, ![4096, 1024]⟩ : Shape).Idx → EReal)
    (h0 p0 : Fin 4096 → EReal) (b : Fin 16384) (n : Fin 4096) :
    response x h p h0 p0 (ix2 b n)
      = point (fun k => x (ix2 b k)) (fun k => h (ix2 n k)) (fun k => p (ix2 n k)) (h0 n) (p0 n) := rfl

end Cert.Response

end
-- ==== Proof.ReferenceResponse.lean ====
/-
  The reference program computes the response.

  Its last stage, read at entry (b, n), is the output scale times ((⟨s·x_b, h_n⟩ + h0_n)² − ((‖s·x_b‖² − 2·⟨s·x_b, p_n⟩) + ‖p_n‖²) + p0_n):
  each of its two matrix products is the sum over the 1024 features of the products of row b of the scaled input with row n
  of the weights, each of its two sums of squares starts from the zero word, which denotes 0, and its broadcasts of the
  offsets and of the row sums read the vector at n or at b.
-/
import proofs.«175588_j47347719471158_1_alg».proof.Proof.Gen.ReferenceIdeal.Read
import proofs.«175588_j47347719471158_1_alg».proof.Proof.Response

noncomputable section

open scoped BigOperators

namespace Cert.ReferenceResponse

open Cert.ReferenceIdeal Cert.ReferenceIdeal.Gen Cert.ReferenceIdeal.Read Idealize.ShloMosaic Idealize.ShloMosaic.ValueIdx
open Cert.Response

/-- The reference's result is the response of the input, the two weight matrices as it reshapes them out of the packed
    parameters, and the two offset vectors as it slices them. -/
theorem result_eq (x0 : (⟨S16384x1024, .f32⟩ : BufTy).Contents (Elt Ideal)) (x1 : (⟨S8396800, .f32⟩ : BufTy).Contents (Elt Ideal)) :
    val_main_v31 (F := Ideal) x0 x1
      = response x0 (val_main_v4 (F := Ideal) x1) (val_main_v6 (F := Ideal) x1)
          (fun n => val_main_v2 (F := Ideal) x1 (ix1 n)) (fun n => val_main_v7 (F := Ideal) x1 (ix1 n)) := by
  funext i
  obtain ⟨b, n, rfl⟩ : ∃ (b : Fin 16384) (n : Fin 4096), i = ix2 b n := ⟨i 0, i 1, eq_ix2 i⟩
  have el8 : ∀ k : Fin 1024, lidx_main_v8 (ix2 b n) k = ix2 b k := fun k =>
    funext fun a => Fin.ext (by match a with | ⟨0, _⟩ => rfl | ⟨1, _⟩ => rfl)
  have er8 : ∀ k : Fin 1024, ridx_main_v8 (ix2 b n) k = ix2 n k := fun k =>
    funext fun a => Fin.ext (by match a with | ⟨0, _⟩ => rfl | ⟨1, _⟩ => rfl)
  have el17 : ∀ k : Fin 1024, lidx_main_v17 (ix2 b n) k = ix2 b k := fun k =>
    funext fun a => Fin.ext (by match a with | ⟨0, _⟩ => rfl | ⟨1, _⟩ => rfl)
  have er17 : ∀ k : Fin 1024, ridx_main_v17 (ix2 b n) k = ix2 n k := fun k =>
    funext fun a => Fin.ext (by match a with | ⟨0, _⟩ => rfl | ⟨1, _⟩ => rfl)
  have e10 : idx_main_v9 (idx_main_v10 (ix2 b n)) = ix1 n :=
    funext fun a => Fin.ext (by match a with | ⟨0, _⟩ => rfl)
  have e28 : idx_main_v27 (idx_main_v28 (ix2 b n)) = ix1 n :=
    funext fun a => Fin.ext (by match a with | ⟨0, _⟩ => rfl)
  have e13 : ∀ k : Fin 1024, idx_main_v13 (idx_main_v14 (idx_main_v20 (ix2 b n))) k = ix2 b k := fun k =>
    funext fun a => Fin.ext (by match a with | ⟨0, _⟩ => rfl | ⟨1, _⟩ => rfl)
  have e16 : ∀ k : Fin 1024, idx_main_v16 (idx_main_v22 (idx_main_v23 (ix2 b n))) k = ix2 n k := fun k =>
    funext fun a => Fin.ext (by match a with | ⟨0, _⟩ => rfl | ⟨1, _⟩ => rfl)
  rw [response_ix2]
  simp only [val_main_v31_apply, val_main_v30_apply, val_main_cst_3_apply, val_main_v29_apply, val_main_v28_apply,
    val_main_v27_apply, val_main_v26_apply, val_main_v25_apply, val_main_v24_apply, val_main_v23_apply, val_main_v22_apply,
    val_main_v21_apply, val_main_v20_apply, val_main_v19_apply, val_main_v18_apply, val_main_cst_2_apply, val_main_v17_apply,
    val_main_v16_apply, val_main_cst_1_apply, val_main_v15_apply, val_main_v14_apply, val_main_v13_apply, val_main_cst_0_apply,
    val_main_v12_apply, val_main_v11_apply, val_main_v10_apply, val_main_v9_apply, val_main_v8_apply, val_main_v1_apply,
    val_main_v0_apply, val_main_cst_apply,
    el8, er8, el17, er17, e10, e28, e13, e16,
    Ideal.mulf_def, Ideal.addf_def, Ideal.subf_def, Ideal.ofBits_def, Ideal.ofBits_zero_f32, zero_add]
  rfl

end Cert.ReferenceResponse

end
-- ==== Proof.LibKeepdims.lean ====
/-
  Keepdims layouts and last-axis reductions of a matrix, read at indices written by coordinates.

  A sum or maximum taken with the reduced axis kept prints as a reduction to a vector [a], a cast of that vector to a
  column [a, 1], and a broadcast of the column across [a, b]. Read at (p, c), the column is the vector at p and the
  broadcast is the column at p; a vector [n] viewed as [1, 1, n] keeps its entries. A reduction of a matrix [a, b]
  over its last axis reads, at row p, the entries (p, k) for every k: a float sum is their sum, a float maximum from
  −∞ is their maximum folded from −∞. The words of −∞ and of 1.0 denote −∞ and 1.
  Every statement is generic in the extents.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector [a] cast to a column [a, 1] reads, at (p, u), the vector at p. -/
theorem cast_vec_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [n] cast to [1, 1, n] reads, at (u, u', j), the vector at j. -/
theorem cast_vec_11n {n : ℕ} (x : (⟨1, ![n]⟩ : Shape).Idx → α) (h : (⟨1, ![n]⟩ : Shape).ShapeCasts ⟨3, ![1, 1, n]⟩)
    (u u' : Fin 1) (j : Fin n) : shapeCast ⟨3, ![1, 1, n]⟩ x h (ix3 u u' j) = x (ix1 j) :=
  shapeCast_apply x h _ _ (by
    have hu : u.val = 0 := by omega
    have hu' : u'.val = 0 := by omega
    rw [Shape.rowMajor_val_three, Shape.rowMajor_val_one]
    show j.val = (u.val * 1 + u'.val) * n + j.val
    rw [hu, hu']
    simp)

/-- Over row p of a matrix, the index a last-axis reduction inserts coordinate k into is (p, k). -/
theorem lift_row {a b : ℕ} (h : (⟨2, ![a, b]⟩ : Shape).Reduces [1] ⟨1, ![a]⟩) (p : Fin a) (k : Fin b) :
    h.lift (ix1 p) k = ix2 p k :=
  funext fun c => Fin.ext (match c with | ⟨0, _⟩ => rfl | ⟨1, _⟩ => rfl)

/-- A float sum of a matrix over its last axis, at row p, is the sum of that row. -/
theorem sum_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- The word of f32's −∞ denotes −∞. -/
theorem ofBits_neg_inf : Ideal.ofBits .f32 0xFF800000#32 = (⊥ : EReal) := by simp [Ideal.ofBits, Ideal.ieee]

/-- The word of f32's 1.0 denotes 1. -/
theorem ofBits_one_f32 : Ideal.ofBits .f32 0x3F800000#32 = (1 : EReal) :=
  IdealRules.sign_bit.ideal_onePat .f32

/-- The word of bf16's 1.0 denotes 1. -/
theorem ofBits_one_bf16 : Ideal.ofBits .bf16 0x3F80#16 = (1 : EReal) :=
  IdealRules.sign_bit.ideal_onePat .bf16

/-- A float maximum of a matrix over its last axis from −∞, at row p, is the maximum of that row from −∞. -/
theorem max_row {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  show (Finset.univ : Finset (Fin b)).fold max (Ideal.ofBits .f32 0xFF800000#32) (src ∘ h.lift (ix1 p)) = _
  rw [ofBits_neg_inf]
  exact congrArg (fun g : Fin b → EReal => (Finset.univ : Finset (Fin b)).fold max ⊥ g)
    (funext fun k => congrArg src (lift_row h p k))

end Cert.LibKeepdims

end
-- ==== Proof.BodyResponse.lean ====
/-
  The kernel body computes the response, block entry by block entry.

  At one grid point the body holds a 512 × 1024 block of the input, 1024 × 1024 blocks of the directrix weights and of the
  foci, and 1 × 1024 blocks of the two offsets, and stores ONE value: entry (a, q) of it is the response of the block's
  input row a against neuron q of the block. Read at that entry,
    * each block product is the sum over the 1024 features of row a of the scaled input times row q of the weights
      (the contraction is over the second axis of both operands, into a zero accumulator; narrowing to bf16 is the
      identity on extended reals);
    * the row sums of squares, kept as a column and spread over the columns, read the sum of row a; the foci's, kept as a
      column, transposed to a row and spread over the rows, read the sum of row q;
    * the offsets, rows spread over the rows, read their entry q.
  The body scales the input on the right (x·s); the response is written with the scale on the left, so the one law used
  is commutativity of the product, which holds on all extended reals.
-/
import proofs.«175588_j47347719471158_1_alg».proof.Proof.Gen.KernelIdeal.Skeleton
import proofs.«175588_j47347719471158_1_alg».proof.Proof.Response
import proofs.«175588_j47347719471158_1_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.BodyResponse

open Cert.KernelIdeal Cert.KernelIdeal.Gen Idealize.ShloMosaic Idealize.ShloMosaic.ValueIdx Cert.Response

/-! ## The block product at an entry -/

/-- The left operand's index at output entry `i` and contraction index `q`: its row is the output's row … -/
theorem lhs_row (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- … and its column the contraction index. -/
theorem lhs_col (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- The right operand's row is the output's COLUMN (both operands are contracted over their second axis) … -/
theorem rhs_row (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- … and its column the contraction index. -/
theorem rhs_col (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- A block product into the zero accumulator, at entry (a, q): the sum over the features of row a of the left
    operand times row q of the right one. -/
theorem product_apply (l : FVec Ideal S512x1024 .bf16) (r : FVec Ideal S1024x1024 .bf16) (a : Fin 512) (q : Fin 1024) :
    matmul dot_S512x1024_S1024x1024_S512x1024_1_1_0_0_n_n none l r (constant S512x1024 .f32 0x00000000#32) (ix2 a q)
      = ∑ k : Fin 1024, l (ix2 a k) * r (ix2 q k) := by
  simp only [matmul]
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 a q) ((ValueIdx.contrEquiv1 dot_S512x1024_S1024x1024_S512x1024_1_1_0_0_n_n 1024 rfl rfl).symm k) = ix2 a k := funext fun c => Fin.ext (by
    match c with
    | ⟨0, _⟩ => exact lhs_row _ _
    | ⟨1, _⟩ => exact (lhs_col _ _).trans hk)
  have er : dot_S512x1024_S1024x1024_S512x1024_1_1_0_0_n_n.rhsIdx (ix2 a q) ((ValueIdx.contrEquiv1 dot_S512x1024_S1024x1024_S512x1024_1_1_0_0_n_n 1024 rfl rfl).symm k) = ix2 q k := funext fun c => Fin.ext (by
    match c with
    | ⟨0, _⟩ => exact rhs_row _ _
    | ⟨1, _⟩ => exact (rhs_col _ _).trans hk)
  rw [el, er]

/-! ## The two sums kept with their reduced axis -/

/-- A matrix's last-axis sum, kept as a column and spread over 1024 columns, reads at (a, q) the sum of row a. -/
theorem rowsum_apply (v : FVec Ideal S512x1024 .f32) (hφ : FKind.Formats .f32) (hacc : (0x00000000#32 : BitVec 32) = 0x00000000#32)
    (a : Fin 512) (q : Fin 1024) :
    broadcastTo S512x1024 (shapeCast S512x1 (multiReduction .add [1] S512 v 0x00000000#32 reduces_S512x1024_S512 hφ hacc)
        shapeCasts_S512_S512x1) broadcasts_S512x1_S512x1024 (ix2 a q)
      = ∑ k : Fin 1024, v (ix2 a k) :=
  (Cert.LibKeepdims.bcast_col _ _ a q).trans
    ((Cert.LibKeepdims.cast_vec_col _ _ a 0).trans (Cert.LibKeepdims.sum_row _ _ _ _ a))

/-- A matrix's last-axis sum, kept as a column, transposed to a row and spread over 512 rows, reads at (a, q) the sum
    of row q. -/
theorem colsum_apply (w : FVec Ideal S1024x1024 .f32) (hφ : FKind.Formats .f32) (hacc : (0x00000000#32 : BitVec 32) = 0x00000000#32)
    (a : Fin 512) (q : Fin 1024) :
    broadcastTo S512x1024 (transpose S1x1024 [1, 0] (shapeCast S1024x1 (multiReduction .add [1] S1024 w 0x00000000#32
        reduces_S1024x1024_S1024 hφ hacc) shapeCasts_S1024_S1024x1) transposes_S1024x1_p1_0_S1x1024)
        broadcasts_S1x1024_S512x1024 (ix2 a q)
      = ∑ k : Fin 1024, w (ix2 q k) :=
  (broadcastTo_1b_ab_apply _ _ a q).trans
    ((transpose_ix2_apply _ _ (0 : Fin 1) q).trans
      ((Cert.LibKeepdims.cast_vec_col _ _ q 0).trans (Cert.LibKeepdims.sum_row _ _ _ _ q)))

/-! ## The stored value at an entry -/

/-- Entry (a, q) of the value the body stores is the response of input row a of the block against neuron q of the
    block: its weight row, its focus row, and its two offsets. -/
theorem body_apply (x0 : Vec Ideal S512x1024 .f32) (x1 x2 : Vec Ideal S1024x1024 .f32) (x3 x4 : Vec Ideal S1x1024 .f32)
    (a : Fin 512) (q : Fin 1024) :
    k0_pay1 (F := Ideal) x0 x1 x2 x3 x4 (ix2 a q)
      = point (fun k => x0 (ix2 a k)) (fun k => x1 (ix2 q k)) (fun k => x2 (ix2 q k)) (x3 (ix2 0 q)) (x4 (ix2 0 q)) := by
  unfold k0_pay1
  dsimp only
  simp only [mulf_apply, addf_apply, subf_apply, broadcast_apply, shapeCast_self]
  rw [rowsum_apply, colsum_apply, product_apply, product_apply, broadcastTo_1b_ab_apply, broadcastTo_1b_ab_apply]
  simp only [mulf_apply, truncf_apply, broadcast_apply]
  have hs : ∀ k : Fin 1024, x0 (ix2 a k) * FloatOps.ofBits (F := Ideal) .f32 0x3C23D70A#32 = inScale * x0 (ix2 a k) :=
    fun k => mul_comm _ _
  simp only [hs]
  rfl

end Cert.BodyResponse

end
-- ==== Proof.KernelResponse.lean ====
/-
  The kernel's result array is the response of what the region finds in its five input arrays.

  The grid is 4 × 32: point (j, i) handles input rows 512·i … 512·i + 511 and neurons 1024·j … 1024·j + 1023. Its input
  block is block (i, 0) of the input, its weight and focus blocks are block (j, 0) of the two matrices, its offset
  blocks are block (0, j) of the two offset rows, and it writes block (i, j) of the result. So entry (a, q) of the block
  it writes is result entry (512·i + a, 1024·j + q), and the rows the body reads are rows 512·i + a of the input and
  1024·j + q of the matrices: the written block is the block of ONE function of the arrays, their response. Every result
  entry (r, n) lies in the block of the point with i = r / 512 and j = n / 1024, so after the run the array IS the
  response.

  Before the region, the host slices the packed parameter vector into the directrix offsets [0, 4096), the directrix
  weights [4096, 4198400), the foci [4198400, 8392704) and the focus offsets [8392704, 8396800), reshaping the two long
  pieces to 4096 × 1024 and the two short ones to a row 1 × 4096; entry (0, n) of such a row is entry n of the piece.
-/
import proofs.«175588_j47347719471158_1_alg».proof.Proof.Gen.KernelIdeal.Value
import proofs.«175588_j47347719471158_1_alg».proof.Proof.BodyResponse
import Idealize.ShloMosaic.Lib.StableHlo.Run
import Idealize.ShloMosaic.Lib.ValueLayout

noncomputable section

open scoped BigOperators

namespace Cert.KernelResponse

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Response

variable (m : (ℓ : Loc nD τ sig) → Buf (Elt Ideal) ℓ) (ρ : Dev nD → PrngReg)

/-! ## The result as the region's arrays give it -/

/-- The response of the five arrays the region is entered with: the input, the weights, the foci, and the two offset
    rows read along their one row. -/
def result (c : Dev nD) : S16384x4096.Idx → EReal :=
  response (V m c main_arg0) (V m c main_v3) (V m c main_v5)
    (fun n => V m c main_v1 (ix2 (0 : Fin 1) n)) (fun n => V m c main_v7 (ix2 (0 : Fin 1) n))

/-! ## Each point writes its block of the result -/

theorem origin : (![0, 0] : Fin 2 → Nat) = fun _ => 0 := funext fun a => by fin_cases a <;> rfl

/-- Where each input window's block sits relative to the output's, at every grid point (decided over the 128 points):
    the input moves with the output's row block, the matrices and the offsets with its column block. -/
theorem index_maps : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2) :=
  (by decide +kernel : ∀ t : Fin grid0.N, _)

/-- Every block (i, j) of the result, i < 32 and j < 4, is some point's. -/
theorem index_onto : ∀ (q0 : Fin 32) (q1 : Fin 4), ∃ t : Fin cfg0.N, win0_5.index t = ![q0.val, q1.val] :=
  (by decide +kernel : ∀ (q0 : Fin 32) (q1 : Fin 4), ∃ t : Fin grid0.N, win0_5.index t = ![q0.val, q1.val])

/-- What point `t` writes back is block `t` of the result. -/
theorem flushed_eq (c : Dev nD) (t : Fin cfg0.N) (_hf : (cfg0.win 5).flush t = true) :
    (dats m 0 c).flushed 5 t = ((cfg0.win 5).blk t).view.read (Elt Ideal) (result m c) := by
  rw [Cert.KernelIdeal.Value.flushed5]
  unfold out0_5
  rw [View.canon_unit_zero origin]
  simp only [View.ld_unit_zero (S := S512x1024) origin, View.ld_unit_zero (S := S1024x1024) origin,
    View.ld_unit_zero (S := S1x1024) origin]
  obtain ⟨e00, e01, e10, e11, e20, e21, e30, e31, e40, e41⟩ := index_maps t
  funext j
  obtain ⟨a, q, rfl⟩ : ∃ (a : Fin 512) (q : Fin 1024), j = ix2 a q := ⟨j 0, j 1, eq_ix2 j⟩
  show k0_pay1 (F := Ideal) (iblk m c 0 t) (iblk m c 1 t) (iblk m c 2 t) (iblk m c 3 t) (iblk m c 4 t) (ix2 a q)
      = result m c (((cfg0.win 5).blk t).view.emb (ix2 a q))
  refine (Cert.BodyResponse.body_apply _ _ _ _ _ a q).trans ?_
  refine point_congr (fun k => ?_) (fun k => ?_) (fun k => ?_) ?_ ?_
  · show V m c main_arg0 (((cfg0.win 0).blk t).view.emb (ix2 a k))
        = V m c main_arg0 (ix2 ((((cfg0.win 5).blk t).view.emb (ix2 a q)) 0) k)
    refine congrArg _ (funext fun d => Fin.ext ?_)
    match d with
    | ⟨0, _⟩ => show win0_0.index t (0 : Fin 2) * 512 + 1 * a.val = win0_5.index t (0 : Fin 2) * 512 + 1 * a.val; omega
    | ⟨1, _⟩ => show win0_0.index t (1 : Fin 2) * 1024 + 1 * k.val = k.val; omega
  · show V m c main_v3 (((cfg0.win 1).blk t).view.emb (ix2 q k))
        = V m c main_v3 (ix2 ((((cfg0.win 5).blk t).view.emb (ix2 a q)) 1) k)
    refine congrArg _ (funext fun d => Fin.ext ?_)
    match d with
    | ⟨0, _⟩ => show win0_1.index t (0 : Fin 2) * 1024 + 1 * q.val = win0_5.index t (1 : Fin 2) * 1024 + 1 * q.val; omega
    | ⟨1, _⟩ => show win0_1.index t (1 : Fin 2) * 1024 + 1 * k.val = k.val; omega
  · show V m c main_v5 (((cfg0.win 2).blk t).view.emb (ix2 q k))
        = V m c main_v5 (ix2 ((((cfg0.win 5).blk t).view.emb (ix2 a q)) 1) k)
    refine congrArg _ (funext fun d => Fin.ext ?_)
    match d with
    | ⟨0, _⟩ => show win0_2.index t (0 : Fin 2) * 1024 + 1 * q.val = win0_5.index t (1 : Fin 2) * 1024 + 1 * q.val; omega
    | ⟨1, _⟩ => show win0_2.index t (1 : Fin 2) * 1024 + 1 * k.val = k.val; omega
  · show V m c main_v1 (((cfg0.win 3).blk t).view.emb (ix2 (0 : Fin 1) q))
        = V m c main_v1 (ix2 (0 : Fin 1) ((((cfg0.win 5).blk t).view.emb (ix2 a q)) 1))
    refine congrArg _ (funext fun d => Fin.ext ?_)
    match d with
    | ⟨0, _⟩ => show win0_3.index t (0 : Fin 2) * 1 + 1 * 0 = 0; omega
    | ⟨1, _⟩ => show win0_3.index t (1 : Fin 2) * 1024 + 1 * q.val = win0_5.index t (1 : Fin 2) * 1024 + 1 * q.val; omega
  · show V m c main_v7 (((cfg0.win 4).blk t).view.emb (ix2 (0 : Fin 1) q))
        = V m c main_v7 (ix2 (0 : Fin 1) ((((cfg0.win 5).blk t).view.emb (ix2 a q)) 1))
    refine congrArg _ (funext fun d => Fin.ext ?_)
    match d with
    | ⟨0, _⟩ => show win0_4.index t (0 : Fin 2) * 1 + 1 * 0 = 0; omega
    | ⟨1, _⟩ => show win0_4.index t (1 : Fin 2) * 1024 + 1 * q.val = win0_5.index t (1 : Fin 2) * 1024 + 1 * q.val; omega

/-! ## The blocks cover the array -/

/-- A result index is in point `t`'s block iff each coordinate is in the block's range on its axis. -/
theorem mem_block (t : Fin cfg0.N) (i : S16384x4096.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v8).slice (win0_5.rect t)).set ↔ _
  rw [View.set_slice_whole, Rect.mem_set_unit]
  exact Iff.rfl

/-- Entry (r, n) lies in the block of the point whose row block is r / 512 and whose column block is n / 1024. -/
theorem covered (i : S16384x4096.Idx) :
    ∃ t : Fin cfg0.N, (cfg0.win 5).flush t = true ∧ i ∈ ((cfg0.win 5).blk t).view.set := by
  have hi0 : (i 0).val < 16384 := (i 0).isLt
  have hi1 : (i 1).val < 4096 := (i 1).isLt
  obtain ⟨t, ht⟩ := index_onto ⟨(i 0).val / 512, by omega⟩ ⟨(i 1).val / 1024, by omega⟩
  have q0 : win0_5.index t (0 : Fin 2) = (i 0).val / 512 := congrFun ht 0
  have q1 : win0_5.index t (1 : Fin 2) = (i 1).val / 1024 := congrFun ht 1
  refine ⟨t, flush0_5 t, ?_⟩
  rw [mem_block]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 1024 ≤ (i 1).val ∧ (i 1).val < win0_5.index t (1 : Fin 2) * 1024 + 1024
    omega

/-- After the run the result array is the response of the region's arrays. -/
theorem final (c : Dev nD) : (dats m 0 c).arrAt 5 cfg0.N = result m c :=
  (dats m 0 c).arrAt_eq_of_cover 5 (result m c) (flushed_eq m c) covered

/-! ## What the region finds: the packed parameters, sliced and reshaped -/

/-- The directrix weights: parameters [4096, 4198400) as 4096 rows of 1024. -/
theorem weights_eq (c : Dev nD) :
    (V m c main_v3 : S4096x1024.Idx → EReal)
      = shapeCast S4096x1024 (extractStridedSlice S4194304 ![4096] (m ((c : Thread nD τ).loc main_arg1))
          slices_S8396800_S4194304_4096) shapeCasts_S4194304_S4096x1024 := by
  dsimp only [V, hostOps0]; after_results; rfl

/-- The foci: parameters [4198400, 8392704) as 4096 rows of 1024. -/
theorem foci_eq (c : Dev nD) :
    (V m c main_v5 : S4096x1024.Idx → EReal)
      = shapeCast S4096x1024 (extractStridedSlice S4194304 ![4198400] (m ((c : Thread nD τ).loc main_arg1))
          slices_S8396800_S4194304_4198400) shapeCasts_S4194304_S4096x1024 := by
  dsimp only [V, hostOps0]; after_results; rfl

/-- The directrix offsets: parameters [0, 4096) as one row. -/
theorem weightOffsets_eq (c : Dev nD) :
    (V m c main_v1 : S1x4096.Idx → EReal)
      = shapeCast S1x4096 (extractStridedSlice S4096 ![0] (m ((c : Thread nD τ).loc main_arg1))
          slices_S8396800_S4096_0) shapeCasts_S4096_S1x4096 := by
  dsimp only [V, hostOps0]; after_results; rfl

/-- The focus offsets: parameters [8392704, 8396800) as one row. -/
theorem focusOffsets_eq (c : Dev nD) :
    (V m c main_v7 : S1x4096.Idx → EReal)
      = shapeCast S1x4096 (extractStridedSlice S4096 ![8392704] (m ((c : Thread nD τ).loc main_arg1))
          slices_S8396800_S4096_8392704) shapeCasts_S4096_S1x4096 := by
  dsimp only [V, hostOps0]; after_results; rfl

/-- The result as a function of the two ARGUMENT arrays: the response of the input, the two reshaped slices, and the
    two short slices read entry by entry. -/
theorem result_eq (c : Dev nD) :
    result m c
      = response (m ((c : Thread nD τ).loc main_arg0))
          (shapeCast S4096x1024 (extractStridedSlice S4194304 ![4096] (m ((c : Thread nD τ).loc main_arg1))
            slices_S8396800_S4194304_4096) shapeCasts_S4194304_S4096x1024)
          (shapeCast S4096x1024 (extractStridedSlice S4194304 ![4198400] (m ((c : Thread nD τ).loc main_arg1))
            slices_S8396800_S4194304_4198400) shapeCasts_S4194304_S4096x1024)
          (fun n => extractStridedSlice S4096 ![0] (m ((c : Thread nD τ).loc main_arg1)) slices_S8396800_S4096_0 (ix1 n))
          (fun n => extractStridedSlice S4096 ![8392704] (m ((c : Thread nD τ).loc main_arg1)) slices_S8396800_S4096_8392704 (ix1 n)) := by
  have e1 : (fun n : Fin 4096 => (V m c main_v1 : S1x4096.Idx → EReal) (ix2 (0 : Fin 1) n))
      = fun n => extractStridedSlice S4096 ![0] (m ((c : Thread nD τ).loc main_arg1)) slices_S8396800_S4096_0 (ix1 n) :=
    funext fun n => by rw [weightOffsets_eq]; exact shapeCast_a_1a_apply _ _ 0 n
  have e7 : (fun n : Fin 4096 => (V m c main_v7 : S1x4096.Idx → EReal) (ix2 (0 : Fin 1) n))
      = fun n => extractStridedSlice S4096 ![8392704] (m ((c : Thread nD τ).loc main_arg1)) slices_S8396800_S4096_8392704 (ix1 n) :=
    funext fun n => by rw [focusOffsets_eq]; exact shapeCast_a_1a_apply _ _ 0 n
  show response (V m c main_arg0) (V m c main_v3 : S4096x1024.Idx → EReal) (V m c main_v5 : S4096x1024.Idx → EReal)
      (fun n : Fin 4096 => (V m c main_v1 : S1x4096.Idx → EReal) (ix2 (0 : Fin 1) n))
      (fun n : Fin 4096 => (V m c main_v7 : S1x4096.Idx → EReal) (ix2 (0 : Fin 1) n)) = _
  rw [e1, e7, weights_eq, foci_eq, V_main_arg0]

/-! ## The run -/

/-- Every weakly fair execution ends with the result array at the response of the argument arrays, the arguments
    unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelResponse

end
-- ==== Proof.lean ====
/-
  A paraboloid neuron layer: a Pallas kernel against its jnp reference, over the extended reals.

  With x = s·input (s the float nearest 0.01), weights h with offsets h0 and foci p with offsets p0 unpacked from one
  parameter vector, both programs return
      out · ((x·hᵀ + h0)² − ((‖x‖² − 2·x·pᵀ) + ‖p‖²) + p0),      out the float nearest 0.1,
  an array of 16384 × 4096. The kernel tiles it into 512 × 1024 blocks over a 4 × 32 grid and forms the two products on
  the matrix unit from operands narrowed to bf16, which is the identity on extended reals; the reference forms them whole.

  The two sides use the same scale words, the same factor 2 and the same grouping of every sum and difference. They
  differ only in how a sum over the 1024 features is spelt (a block product into a zero accumulator, a host contraction,
  a lane reduction, a host reduction from the zero word) and in the side the input scale multiplies on, so equality needs
  commutativity of the product and 0 + a = a, both valid on all extended reals: the precondition is never opened.

    * Response            — the response as one function of the arrays, entry by entry;
    * ReferenceResponse   — the reference's last stage is that function;
    * BodyResponse        — the value the kernel body stores is that function of its blocks' rows;
    * KernelResponse      — each grid point writes its block of the response, the blocks cover the array, and the
                            region's arrays are the reference's slices of the parameters.
  The three frames are the generated ones (the reference's is its generated run with the result dropped), and there is
  nothing to preserve: the idealization rewrote no operation.
-/
import proofs.«175588_j47347719471158_1_alg».proof.Defs
import proofs.«175588_j47347719471158_1_alg».proof.Proof.Gen.Kernel
import proofs.«175588_j47347719471158_1_alg».proof.Proof.Gen.Kernel.Skeleton
import proofs.«175588_j47347719471158_1_alg».proof.Proof.Gen.Kernel.Launch
import proofs.«175588_j47347719471158_1_alg».proof.Proof.Gen.Kernel.Points
import proofs.«175588_j47347719471158_1_alg».proof.Proof.Gen.Kernel.Frame
import proofs.«175588_j47347719471158_1_alg».proof.Proof.Gen.KernelIdeal
import proofs.«175588_j47347719471158_1_alg».proof.Proof.Gen.KernelIdeal.Skeleton
import proofs.«175588_j47347719471158_1_alg».proof.Proof.Gen.KernelIdeal.Launch
import proofs.«175588_j47347719471158_1_alg».proof.Proof.Gen.KernelIdeal.Points
import proofs.«175588_j47347719471158_1_alg».proof.Proof.Gen.KernelIdeal.Frame
import proofs.«175588_j47347719471158_1_alg».proof.Proof.Gen.ReferenceIdeal
import proofs.«175588_j47347719471158_1_alg».proof.Proof.Gen.Pre_finite_inputs
import proofs.«175588_j47347719471158_1_alg».proof.Proof.Gen.KernelIdeal.Value
import proofs.«175588_j47347719471158_1_alg».proof.Proof.Gen.ReferenceIdeal.Run
import proofs.«175588_j47347719471158_1_alg».proof.Proof.Gen.ReferenceIdeal.Read
import proofs.«175588_j47347719471158_1_alg».proof.Proof.ReferenceResponse
import proofs.«175588_j47347719471158_1_alg».proof.Proof.KernelResponse
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was read over the extended reals. -/
theorem preserves : Cert.preserves_Kernel_KernelIdeal := trivial

/-- From arguments that agree, the kernel's result array and the reference's result are both the response of the input
    and of the parameter vector's four pieces. -/
theorem algebraic : Cert.algebraic_KernelIdeal_ReferenceIdeal := by
  intro m ρ m' ρ' _ hagree
  refine ⟨Cert.KernelResponse.result m, Cert.KernelResponse.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceResponse.result_eq, (hagree c).1, (hagree c).2,
    Cert.KernelResponse.result_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
